-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x4096 : Shape := ⟨2, ![4096, 4096]⟩
abbrev S4096 : Shape := ⟨1, ![4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S1024x4096 .f32) (main_arg1 : FVec F S1024x4096 .f32) (main_arg2 : FVec F S1024x4096 .f32) (main_arg3 : FVec F S4096x4096 .f32) (main_arg4 : FVec F S4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S1024x4096 : Shape := ⟨2, ![1024, 4096]⟩
abbrev S4096x4096 : Shape := ⟨2, ![4096, 4096]⟩
abbrev S4096 : Shape := ⟨1, ![4096]⟩
abbrev S1x4096 : Shape := ⟨2, ![1, 4096]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 8
  | .vmem => 15
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S4096x4096, .f32⟩
  | .hbm, ⟨4, _⟩ => ⟨S4096, .f32⟩
  | .hbm, ⟨5, _⟩ => ⟨S1x4096, .f32⟩
  | .hbm, ⟨6, _⟩ => ⟨S1024x4096, .f32⟩
  | .hbm, ⟨7, _⟩ => ⟨S1024x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  natLt_1_32 : 1 < 32
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S1024x4096.size a
  hwx0_0 : ∀ i : grid0.Coords, EltTy.bits .f32 = 32 ∨ (Rect.block (s := S1024x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S1024x4096.size a
  hwx0_2 : ∀ i : grid0.Coords, EltTy.bits .f32 = 32 ∨ (Rect.block (s := S1024x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S1024x4096.size a
  hwx0_3 : ∀ i : grid0.Coords, EltTy.bits .f32 = 32 ∨ (Rect.block (s := S1024x4096) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S1024x4096.size a
  hwx0_5 : ∀ i : grid0.Coords, EltTy.bits .f32 = 32 ∨ (Rect.block (s := S1024x4096) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S1024x4096.size a
  hwx0_6 : ∀ i : grid0.Coords, EltTy.bits .f32 = 32 ∨ (Rect.block (s := S1024x4096) S512x1024.size (cc0_transform_6 i) (hinb0_6 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S1024x4096 : Shape := ⟨2, ![1024, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S4096x4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S1x4096, .f32⟩
  | .hbm, ⟨14, _⟩ => ⟨S1024x4096, .f32⟩
  | .hbm, ⟨15, _⟩ => ⟨S1024x4096, .f32⟩
  | .hbm, ⟨16, _⟩ => ⟨S_, .f32⟩
  | .hbm, ⟨17, _⟩ => ⟨S1024x4096, .f32⟩
  | .hbm, ⟨18, _⟩ => ⟨S1024x4096, .f32⟩
  | .hbm, ⟨19, _⟩ => ⟨S1024x4096, .f32⟩
  | .hbm, ⟨20, _⟩ => ⟨S1024x4096, .f32⟩
  | .hbm, ⟨21, _⟩ => ⟨S1024x4096, .f32⟩
  | .hbm, ⟨22, _⟩ => ⟨S_, .f32⟩
  | .hbm, ⟨23, _⟩ => ⟨S1024x4096, .f32⟩
  | .hbm, ⟨24, _⟩ => ⟨S1024x4096, .f32⟩
  | .hbm, ⟨25, _⟩ => ⟨S_, .f32⟩
  | .hbm, ⟨26, _⟩ => ⟨S1024x4096, .f32⟩
  | .hbm, ⟨27, _⟩ => ⟨S1024x4096, .i1⟩
  | .hbm, ⟨28, _⟩ => ⟨S1024x4096, .f32⟩
  | .hbm, ⟨29, _⟩ => ⟨S_, .f32⟩
  | .hbm, ⟨30, _⟩ => ⟨S1024x4096, .f32⟩
  | .hbm, ⟨31, _⟩ => ⟨S1024x4096, .i1⟩
  | .hbm, ⟨32, _⟩ => ⟨S_, .f32⟩
  | .hbm, ⟨33, _⟩ => ⟨S_, .f32⟩
  | .hbm, ⟨34, _⟩ => ⟨S1024x4096, .f32⟩
  | .hbm, ⟨35, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  bcast_S_S1024x4096 : S_.BroadcastsInDim S1024x4096 (![] : Fin 0 → Fin S1024x4096.rank)
  dot_S1024x4096_S4096x4096_S1024x4096_1_1_0_0_n_n_wf : DotDims.WF S1024x4096 S4096x4096 S1024x4096 [1] [1] [0] [0] [] []

variable [Facts₀]

def dot_S1024x4096_S4096x4096_S1024x4096_1_1_0_0_n_n : DotDims S1024x4096 S4096x4096 S1024x4096 where
  lhsContracting := [1]
  rhsContracting := [1]
  lhsNonContracting := [0]
  rhsNonContracting := [0]
  lhsBatch := []
  rhsBatch := []
  wf := dot_S1024x4096_S4096x4096_S1024x4096_1_1_0_0_n_n_wf

class Facts : Prop extends Facts₀ where

variable [Facts]
-- ==== Proof.Pieces.lean ====
/-
  What one grid point's body leaves behind, as values.

  The layer's grid is (row block, column block, reduction step). At every point the body adds one partial product to a
  carried 512 x 1024 accumulator: at reduction step 0 the accumulator is first stored as zeros, so it ends the point at
  (zeros + this step's product); at the later steps it ends at (what the step before left + this step's product). At the
  last reduction step the body then reads the accumulator back and stores the two result blocks: the membrane block
  (the leaky update, kept where it is below the threshold and reset to zero elsewhere) and the spike block (one where
  the update exceeds the threshold, zero elsewhere). Each statement below says that the stored pieces, read back, are
  the corresponding arithmetic term of the blocks the point was given; they hold for every float instance.
-/
import proofs.«150545_j58437325030132_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Lif

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- Reduction step 0: the accumulator is zeroed, read back, and ends at zeros plus this step's product. -/
theorem acc_first (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : cond0_0 i) (hc1 : ¬cond0_1 i) (x0 : Vec F S512x1024 .f32) (x1 : Vec F S1024x1024 .f32) (x2 : Vec F S512x1024 .f32) (x3 : Vec F S512x1024 .f32) (x4 : Vec F S1x1024 .f32) :
    sout0_A_0 c i arg3 harg3 arg4 harg4 arg5 harg5 arg6 harg6 arg7 harg7 arg8 harg8 arg9 harg9 arg10 harg10 hc0 hc1 x0 x1 x2 x3 x4 = k0_pay2 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S512x1024) hz, View.readCov_unit_zero (S := S512x1024) _ hz]
  simp only [View.readAt_eq_ld, harg3.read_unread, harg4.read_unread, harg5.read_unread, harg6.read_unread, harg7.read_unread, harg10.read_unread, View.readCov_unit_zero (S := S512x1024) _ hz, View.ld_unit_zero (S := S512x1024) hz, View.ld_unit_zero (S := S1024x1024) hz, View.ld_unit_zero (S := S1x1024) hz]

/-- A middle reduction step: the accumulator ends at what it held plus this step's product. -/
theorem acc_middle (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : ¬cond0_1 i) (x0 : Vec F S512x1024 .f32) (x1 : Vec F S1024x1024 .f32) (x2 : Vec F S512x1024 .f32) (x3 : Vec F S512x1024 .f32) (x4 : Vec F S1x1024 .f32) (xs0 : Vec F S512x1024 .f32) :
    sout0_B_0 c i arg3 harg3 arg4 harg4 arg5 harg5 arg6 harg6 arg7 harg7 arg8 harg8 arg9 harg9 arg10 harg10 hc0 hc1 x0 x1 x2 x3 x4 xs0 = k0_pay2 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0)]
  unfold kernelRun0_B
  dsimp only
  sl_unfold_words
  rw [View.canon_unit_zero hz]
  simp only [View.readAt_eq_ld, harg3.read_unread, harg4.read_unread, harg5.read_unread, harg6.read_unread, harg7.read_unread, harg10.read_unread, View.readCov_unit_zero (S := S512x1024) _ hz, View.ld_unit_zero (S := S512x1024) hz, View.ld_unit_zero (S := S1024x1024) hz, View.ld_unit_zero (S := S1x1024) hz]

/-- The last reduction step leaves the accumulator the same way. -/
theorem acc_last (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : cond0_1 i) (x0 : Vec F S512x1024 .f32) (x1 : Vec F S1024x1024 .f32) (x2 : Vec F S512x1024 .f32) (x3 : Vec F S512x1024 .f32) (x4 : Vec F S1x1024 .f32) (xs0 : Vec F S512x1024 .f32) :
    sout0_C_0 c i arg3 harg3 arg4 harg4 arg5 harg5 arg6 harg6 arg7 harg7 arg8 harg8 arg9 harg9 arg10 harg10 hc0 hc1 x0 x1 x2 x3 x4 xs0 = k0_pay2 x0 x1 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0)]
  unfold kernelRun0_C
  dsimp only
  sl_unfold_words
  rw [View.canon_unit_zero hz]
  simp only [View.readAt_eq_ld, harg3.read_unread, harg4.read_unread, harg5.read_unread, harg6.read_unread, harg7.read_unread, harg10.read_unread, View.readCov_unit_zero (S := S512x1024) _ hz, View.ld_unit_zero (S := S512x1024) hz, View.ld_unit_zero (S := S1024x1024) hz, View.ld_unit_zero (S := S1x1024) hz]

/-- The membrane block stored at the last reduction step: the thresholded update over the finished accumulator. -/
theorem mem_last (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : cond0_1 i) (x0 : Vec F S512x1024 .f32) (x1 : Vec F S1024x1024 .f32) (x2 : Vec F S512x1024 .f32) (x3 : Vec F S512x1024 .f32) (x4 : Vec F S1x1024 .f32) (xs0 : Vec F S512x1024 .f32) :
    out0_C_5 c i arg3 harg3 arg4 harg4 arg5 harg5 arg6 harg6 arg7 harg7 arg8 harg8 arg9 harg9 arg10 harg10 hc0 hc1 x0 x1 x2 x3 x4 xs0 = k0_pay5 x4 x2 x3 (k0_pay2 x0 x1 xs0) := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0)]
  unfold kernelRun0_C
  dsimp only
  sl_unfold_words
  rw [View.canon_unit_zero hz]
  simp only [View.readAt_eq_ld, harg3.read_unread, harg4.read_unread, harg5.read_unread, harg6.read_unread, harg7.read_unread, harg10.read_unread, View.readCov_unit_zero (S := S512x1024) _ hz, View.ld_unit_zero (S := S512x1024) hz, View.ld_unit_zero (S := S1024x1024) hz, View.ld_unit_zero (S := S1x1024) hz]

/-- The spike block stored at the last reduction step: the threshold test over the same update. -/
theorem spike_last (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : cond0_1 i) (x0 : Vec F S512x1024 .f32) (x1 : Vec F S1024x1024 .f32) (x2 : Vec F S512x1024 .f32) (x3 : Vec F S512x1024 .f32) (x4 : Vec F S1x1024 .f32) (xs0 : Vec F S512x1024 .f32) :
    out0_C_6 c i arg3 harg3 arg4 harg4 arg5 harg5 arg6 harg6 arg7 harg7 arg8 harg8 arg9 harg9 arg10 harg10 hc0 hc1 x0 x1 x2 x3 x4 xs0 = k0_pay4 x4 x2 x3 (k0_pay2 x0 x1 xs0) := by
  unfold out0_C_6
  rw [View.read_writes_eq_canon _ _ _ (cover0_C_6 c i arg3 harg3 arg4 harg4 arg5 harg5 arg6 harg6 arg7 harg7 arg8 harg8 arg9 harg9 arg10 harg10 hc0 hc1 x0 x1 x2 x3 x4 xs0)]
  unfold kernelRun0_C
  dsimp only
  sl_unfold_words
  rw [View.canon_unit_zero hz]
  simp only [View.readAt_eq_ld, harg3.read_unread, harg4.read_unread, harg5.read_unread, harg6.read_unread, harg7.read_unread, harg10.read_unread, View.readCov_unit_zero (S := S512x1024) _ hz, View.ld_unit_zero (S := S512x1024) hz, View.ld_unit_zero (S := S1024x1024) hz, View.ld_unit_zero (S := S1x1024) hz]

end Cert.KernelIdeal.Lif

end
-- ==== Proof.LibMatmulRows.lean ====
/-
  A matrix product that contracts the LAST axis of both rank-2 operands, read at one entry over the extended reals.

  The dimension numbers are those of `DotDims.transposedRhs M K N`: an M×K left operand against an N×K right operand
  (the right operand is used as it lies, rows against rows), into an M×N result. Started from the zero accumulator,
  entry (p, q) of the product is the plain sum over k of x[p, k] · y[q, k]: addition of extended reals is commutative
  and associative and the accumulator's zero is the neutral element, so no rounding and no chunk order is left.
  The contraction index (a one-axis index set) is re-indexed by its coordinate in `Fin K`.
-/
import Idealize.ShloMosaic.Lib.ValueIdx
import Idealize.ShloMosaic.PureOps.Ideal.Laws

noncomputable section

open scoped BigOperators

namespace Idealize.ShloMosaic.MatmulRows

open Idealize.ShloMosaic Idealize.ShloMosaic.ValueIdx

variable {M K N : Nat}

/-- The left operand is read at row `i 0` of the result index … -/
theorem lhs_row (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch by simp [DotDims.transposedRhs]),
    dif_pos (show (0 : Fin 2) ∈ (DotDims.transposedRhs M K N).lhsNonContracting by simp [DotDims.transposedRhs])]
  rfl

/-- … and at the contraction position on its last axis. -/
theorem lhs_col (i : (⟨2, ![M, N]⟩ : Shape).Idx) (q : (DotDims.transposedRhs M K N).contr.Idx) :
    ((DotDims.transposedRhs M K N).lhsIdx i q 1).val = (q ⟨0, by rw [DotDims.rank_contr]; exact Nat.one_pos⟩).val :=
  (DotDims.transposedRhs M K N).lhsIdx_val_of_single rfl i q

/-- The right operand is read at row `i 1` of the result index … -/
theorem rhs_row (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch by simp [DotDims.transposedRhs]),
    dif_pos (show (0 : Fin 2) ∈ (DotDims.transposedRhs M K N).rhsNonContracting by simp [DotDims.transposedRhs])]
  rfl

/-- … and at the same contraction position on its last axis. -/
theorem rhs_col (i : (⟨2, ![M, N]⟩ : Shape).Idx) (q : (DotDims.transposedRhs M K N).contr.Idx) :
    ((DotDims.transposedRhs M K N).rhsIdx i q 1).val = (q ⟨0, by rw [DotDims.rank_contr]; exact Nat.one_pos⟩).val :=
  (DotDims.transposedRhs M K N).rhsIdx_val_of_single rfl i q

/-- Entry (p, q) of x · yᵀ from the zero accumulator: the sum over k of x[p, k] · y[q, k]. -/
theorem matmul_zero_apply {φ₁ φ₂ : FTy} (prec : Option ContractPrecision)
    (x : FVec Ideal ⟨2, ![M, K]⟩ φ₁) (y : FVec Ideal ⟨2, ![N, K]⟩ φ₂) (p : Fin M) (q : Fin N) :
    FloatOps.matmul (DotDims.transposedRhs M K N) prec x y (constant ⟨2, ![M, N]⟩ .f32 0x00000000#32) (ix2 p q)
      = ∑ k : Fin K, x (ix2 p k) * y (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k)
      = ix2 p k := funext fun a => Fin.ext (by
    match a with
    | ⟨0, _⟩ => exact lhs_row _ _
    | ⟨1, _⟩ => exact (lhs_col _ _).trans hk)
  have er : (DotDims.transposedRhs M K N).rhsIdx (ix2 p q) ((contrEquiv1 (DotDims.transposedRhs M K N) K rfl rfl).symm k)
      = ix2 q k := funext fun a => Fin.ext (by
    match a with
    | ⟨0, _⟩ => exact rhs_row _ _
    | ⟨1, _⟩ => exact (rhs_col _ _).trans hk)
  rw [el, er]

end Idealize.ShloMosaic.MatmulRows

end
-- ==== Proof.Spec.lean ====
/-
  The layer's result, as two whole-array functions of its five arguments over the extended reals.

  One step of a leaky integrate-and-fire layer with 1024 batch rows, 4096 inputs and 4096 neurons. With P the incoming
  spikes (1024 x 4096), M the membrane potentials and S the neurons' own last spikes (1024 x 4096), W the weights
  (4096 x 4096, one row per neuron) and tau the per-neuron leak parameter (4096):

      update (b, o) = M (b, o) * sigma (tau o) * (1 - S (b, o))  +  sum over k of P (b, k) * W (o, k),

  where sigma x = 1 / (1 + exp (-x)) is the logistic function. The membrane result keeps the update where it is below
  the threshold and is zero elsewhere; the spike result is one where the update exceeds the threshold and zero
  elsewhere. The threshold is the single-precision word nearest 0.3, the same word in both programs, so it is kept as a
  word and never evaluated.
-/
import Idealize.ShloMosaic.PureOps.Ideal.Laws
import Idealize.ShloMosaic.Lib.ValueIdx
import Idealize.ShloMosaic.Lib.IdealHost

noncomputable section

open Idealize.ShloMosaic

open scoped BigOperators

namespace Cert.LifSpec

open Idealize.ShloMosaic.ValueIdx

/-- The threshold word. -/
abbrev thr : EReal := Ideal.ofBits .f32 0x3E99999A#32

/-- The synaptic drive of neuron `o` in batch row `b`: the incoming spikes against the neuron's weight row. -/
def drive (P : FVec Ideal ⟨2, ![1024, 4096]⟩ .f32) (W : FVec Ideal ⟨2, ![4096, 4096]⟩ .f32) (b : Fin 1024) (o : Fin 4096) : EReal :=
  ∑ k : Fin 4096, P (ix2 b k) * W (ix2 o k)

/-- The leaky update before thresholding. -/
def update (P M S : FVec Ideal ⟨2, ![1024, 4096]⟩ .f32) (W : FVec Ideal ⟨2, ![4096, 4096]⟩ .f32) (tau : FVec Ideal ⟨1, ![4096]⟩ .f32)
    (b : Fin 1024) (o : Fin 4096) : EReal :=
  M (ix2 b o) * Ideal.logistic (tau (ix1 o)) * (1 - S (ix2 b o)) + drive P W b o

/-- The new membrane potentials: the update below the threshold, zero from the threshold on. -/
def memOut (P M S : FVec Ideal ⟨2, ![1024, 4096]⟩ .f32) (W : FVec Ideal ⟨2, ![4096, 4096]⟩ .f32) (tau : FVec Ideal ⟨1, ![4096]⟩ .f32) :
    FVec Ideal ⟨2, ![1024, 4096]⟩ .f32 :=
  fun j => if update P M S W tau (j 0) (j 1) < thr then update P M S W tau (j 0) (j 1) else 0

/-- The new spikes: one above the threshold, zero up to it. -/
def spikeOut (P M S : FVec Ideal ⟨2, ![1024, 4096]⟩ .f32) (W : FVec Ideal ⟨2, ![4096, 4096]⟩ .f32) (tau : FVec Ideal ⟨1, ![4096]⟩ .f32) :
    FVec Ideal ⟨2, ![1024, 4096]⟩ .f32 :=
  fun j => if thr < update P M S W tau (j 0) (j 1) then 1 else 0

/-- A comparison bit chosen between a value and zero is the conditional. -/
theorem select_lt (u c : EReal) :
    Scalar.select (Ideal.cmp .olt u c) u (Ideal.ofBits .f32 0x00000000#32) = if u < c then u else 0 := by
  rw [Ideal.ofBits_zero_f32]
  by_cases h : u < c
  · rw [if_pos h]; simp [Ideal.cmp, Scalar.select, h]
  · rw [if_neg h]; simp [Ideal.cmp, Scalar.select, h]

/-- The test "u exceeds c", widened to a word and read as a signed integer, is one or zero. -/
theorem spike_signed (u c : EReal) :
    (((((Ideal.cmp .ogt u c).setWidth 32).toInt : ℝ)) : EReal) = if c < u then 1 else 0 := by
  by_cases h : c < u
  · rw [if_pos h]; simp [Ideal.cmp, h]
  · rw [if_neg h]; simp [Ideal.cmp, h]

/-- The test "u minus c is positive", read as an unsigned integer, is the same one or zero: on the extended reals
    `0 < u - c` exactly when `c < u`, at the infinities too. -/
theorem spike_shifted (u c : EReal) :
    ((((Ideal.cmp .ogt (u - c) (Ideal.ofBits .f32 0x00000000#32)).toNat : ℝ)) : EReal) = if c < u then 1 else 0 := by
  rw [Ideal.ofBits_zero_f32]
  by_cases h : c < u
  · rw [if_pos h]; simp [Ideal.cmp, EReal.sub_pos, h]
  · rw [if_neg h]; simp [Ideal.cmp, EReal.sub_pos, h]

/-- The logistic function spelled with the word for one, a negation, an exponential, a sum and a quotient. -/
theorem logistic_spelled (x : EReal) :
    Ideal.div (Ideal.ofBits .f32 0x3F800000#32) (Ideal.ofBits .f32 0x3F800000#32 + Ideal.exp (-x)) = Ideal.logistic x := by
  rw [Ideal.ofBits_one_f32]; rfl

end Cert.LifSpec

end
-- ==== Proof.Payloads.lean ====
/-
  The body's arithmetic, read at one entry over the extended reals.

  A block entry is addressed by its row `p` (of 512) and its column `q` (of 1024). The reduction step adds to the
  accumulator entry the product of row `p` of the spike block with row `q` of the weight block over the step's 1024
  input positions (the narrowing of both operands to the short float format is the identity here). The final step's
  update multiplies the membrane entry by the logistic of the leak parameter of column `q` (a one-row block, repeated
  down the rows) and by one minus the own-spike entry, and adds the accumulator entry.
-/
import proofs.«150545_j58437325030132_1_alg».proof.Proof.Gen.KernelIdeal.Skeleton
import proofs.«150545_j58437325030132_1_alg».proof.Proof.LibMatmulRows
import proofs.«150545_j58437325030132_1_alg».proof.Proof.Spec
import Idealize.ShloMosaic.Lib.Pipeline.Value
import Idealize.ShloMosaic.Lib.ValueIdx
import Idealize.ShloMosaic.Lib.IdealHost

noncomputable section

open Idealize.ShloMosaic Idealize.ShloMosaic.TcCoe Idealize.SL.Sem
open Idealize.ShloMosaic.Pipeline (Dat)

open scoped BigOperators

namespace Cert.KernelIdeal.Lif

open Cert.KernelIdeal Cert.KernelIdeal.Gen Idealize.ShloMosaic.ValueIdx

/-- The block the accumulator is reset to holds zero everywhere. -/
theorem zeros_apply (p : Fin 512) (q : Fin 1024) : k0_pay1 (F := Ideal) (ix2 p q) = 0 := by
  unfold k0_pay1
  simp only [shapeCast_self]
  exact Ideal.ofBits_zero_f32

/-- One reduction step at an entry: the accumulator entry plus the step's 1024-term product sum. -/
theorem step_apply (x0 : FVec Ideal S512x1024 .f32) (x1 : FVec Ideal S1024x1024 .f32) (acc : FVec Ideal S512x1024 .f32)
    (p : Fin 512) (q : Fin 1024) :
    k0_pay2 (F := Ideal) x0 x1 acc (ix2 p q) = acc (ix2 p q) + ∑ k : Fin 1024, x0 (ix2 p k) * x1 (ix2 q k) := by
  unfold k0_pay2
  simp only [shapeCast_self]
  exact congrArg (acc (ix2 p q) + ·) (MatmulRows.matmul_zero_apply (M := 512) (K := 1024) (N := 1024) none x0 x1 p q)

/-- The leak parameter's one-row block repeated down the rows, read at an entry. -/
theorem leak_row_apply (v : FVec Ideal S1x1024 .f32) (p : Fin 512) (q : Fin 1024) :
    broadcastTo S512x1024 v broadcasts_S1x1024_S512x1024 (ix2 p q) = v (ix2 0 q) :=
  broadcastTo_apply v broadcasts_S1x1024_S512x1024 (ix2 p q) (ix2 0 q) (fun a => by
    match a with
    | ⟨0, _⟩ => rfl
    | ⟨1, _⟩ => rfl)

/-- The update at an entry. -/
theorem update_apply (tau : FVec Ideal S1x1024 .f32) (mem spk acc : FVec Ideal S512x1024 .f32) (p : Fin 512) (q : Fin 1024) :
    k0_pay3 (F := Ideal) tau mem spk acc (ix2 p q)
      = mem (ix2 p q) * Ideal.logistic (tau (ix2 0 q)) * (1 - spk (ix2 p q)) + acc (ix2 p q) := by
  unfold k0_pay3
  simp only [shapeCast_self]
  show mem (ix2 p q) * broadcastTo S512x1024 (logistic tau) broadcasts_S1x1024_S512x1024 (ix2 p q)
      * (Ideal.ofBits .f32 0x3F800000#32 - spk (ix2 p q)) + acc (ix2 p q) = _
  rw [leak_row_apply, Ideal.ofBits_one_f32]
  rfl

/-- The membrane block at an entry: the update kept below the threshold, zero from it on. -/
theorem mem_apply (tau : FVec Ideal S1x1024 .f32) (mem spk acc : FVec Ideal S512x1024 .f32) (p : Fin 512) (q : Fin 1024) :
    k0_pay5 (F := Ideal) tau mem spk acc (ix2 p q)
      = if k0_pay3 (F := Ideal) tau mem spk acc (ix2 p q) < Cert.LifSpec.thr then k0_pay3 (F := Ideal) tau mem spk acc (ix2 p q) else 0 := by
  unfold k0_pay5
  exact Cert.LifSpec.select_lt _ _

/-- The spike block at an entry: one above the threshold, zero up to it. -/
theorem spike_apply (tau : FVec Ideal S1x1024 .f32) (mem spk acc : FVec Ideal S512x1024 .f32) (p : Fin 512) (q : Fin 1024) :
    k0_pay4 (F := Ideal) tau mem spk acc (ix2 p q)
      = if Cert.LifSpec.thr < k0_pay3 (F := Ideal) tau mem spk acc (ix2 p q) then 1 else 0 := by
  unfold k0_pay4
  exact Cert.LifSpec.spike_signed _ _

end Cert.KernelIdeal.Lif

end
-- ==== Proof.LibNatRead.lean ====
/-
  Arrays read at natural-number coordinates.

  A block of a tiled array is addressed by `tile · size + offset`; carrying the bound `tile · size + offset < extent`
  through every statement about a block is noise. So a rank-2 array is read here at two natural numbers: the entry when
  both are in range, `0` otherwise (a value no statement below depends on). `at2_val` turns an entry read at an
  index's own coordinates back into the entry.
-/
import Idealize.ShloMosaic.Lib.ValueIdx

noncomputable section

namespace NatRead

open Idealize.ShloMosaic Idealize.ShloMosaic.ValueIdx

variable {M N : ℕ}

/-- The entry at row `a`, column `b`, or `0` out of range. -/
def at2 (v : (⟨2, ![M, N]⟩ : Shape).Idx → EReal) (a b : ℕ) : EReal :=
  if h : a < M ∧ b < N then v (ix2 ⟨a, h.1⟩ ⟨b, h.2⟩) else 0

theorem at2_of_lt (v : (⟨2, ![M, N]⟩ : Shape).Idx → EReal) {a b : ℕ} (ha : a < M) (hb : b < N) :
    at2 v a b = v (ix2 ⟨a, ha⟩ ⟨b, hb⟩) := dif_pos ⟨ha, hb⟩

/-- Read at an index's own coordinates: the entry. -/
theorem at2_val (v : (⟨2, ![M, N]⟩ : Shape).Idx → EReal) (i : (⟨2, ![M, N]⟩ : Shape).Idx) :
    at2 v (i 0).val (i 1).val = v i := by
  rw [at2_of_lt v (i 0).isLt (i 1).isLt]
  exact congrArg v (eq_ix2 i).symm

/-- Read at coordinates given as `Fin`s: the entry. -/
theorem at2_fin (v : (⟨2, ![M, N]⟩ : Shape).Idx → EReal) (a : Fin M) (b : Fin N) :
    at2 v a.val b.val = v (ix2 a b) := at2_of_lt v a.isLt b.isLt

end NatRead

end
-- ==== Proof.Blocks.lean ====
/-
  Where each block of a grid point lies in its array.

  Grid point `t` (of 32, the reduction step running fastest) is row block `t / 16` (of 2), column block `(t / 4) % 4`
  (of 4) and reduction step `t % 4` (of 4). The spike block is rows `512 (t / 16) + p`, inputs `1024 (t % 4) + k` of the
  incoming spikes; the weight block is neurons `1024 ((t / 4) % 4) + q`, the same inputs, of the weights; the membrane,
  own-spike and both result blocks are rows `512 (t / 16) + p`, neurons `1024 ((t / 4) % 4) + q`; the leak block is the
  same neurons of the leak parameters laid out as one row. Arrays are read at natural-number coordinates, so no bound
  travels with a statement.
-/
import proofs.«150545_j58437325030132_1_alg».proof.Proof.Gen.KernelIdeal.Frame
import proofs.«150545_j58437325030132_1_alg».proof.Proof.LibNatRead
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)

namespace Cert.KernelIdeal.Lif

open Cert.KernelIdeal Cert.KernelIdeal.Gen Idealize.ShloMosaic.ValueIdx

variable (m : (ℓ : Loc nD τ sig) → Buf (Elt Ideal) ℓ)

/-! ## The arrays as the kernel finds them, and a point's blocks, at their literal types -/

abbrev spikesIn (c : Dev nD) : FVec Ideal S1024x4096 .f32 := V m c main_arg0
abbrev weights (c : Dev nD) : FVec Ideal S4096x4096 .f32 := V m c main_arg3
abbrev membrane (c : Dev nD) : FVec Ideal S1024x4096 .f32 := V m c main_arg1
abbrev ownSpikes (c : Dev nD) : FVec Ideal S1024x4096 .f32 := V m c main_arg2
abbrev leakRow (c : Dev nD) : FVec Ideal S1x4096 .f32 := V m c main_v0

abbrev spikesBlk (c : Dev nD) (t : Fin cfg0.N) : FVec Ideal S512x1024 .f32 := iblk m c 0 t
abbrev weightsBlk (c : Dev nD) (t : Fin cfg0.N) : FVec Ideal S1024x1024 .f32 := iblk m c 1 t
abbrev membraneBlk (c : Dev nD) (t : Fin cfg0.N) : FVec Ideal S512x1024 .f32 := iblk m c 2 t
abbrev ownSpikesBlk (c : Dev nD) (t : Fin cfg0.N) : FVec Ideal S512x1024 .f32 := iblk m c 3 t
abbrev leakBlk (c : Dev nD) (t : Fin cfg0.N) : FVec Ideal S1x1024 .f32 := iblk m c 4 t

/-! ## The index maps over the grid, decided once -/

theorem idx_spikes : ∀ t : Fin cfg0.N, win0_0.index t (0 : Fin 2) = t.val / 16 ∧ win0_0.index t (1 : Fin 2) = t.val % 4 :=
  (by decide +kernel : ∀ t : Fin grid0.N, win0_0.index t (0 : Fin 2) = t.val / 16 ∧ win0_0.index t (1 : Fin 2) = t.val % 4)

theorem idx_weights : ∀ t : Fin cfg0.N, win0_1.index t (0 : Fin 2) = t.val / 4 % 4 ∧ win0_1.index t (1 : Fin 2) = t.val % 4 :=
  (by decide +kernel : ∀ t : Fin grid0.N, win0_1.index t (0 : Fin 2) = t.val / 4 % 4 ∧ win0_1.index t (1 : Fin 2) = t.val % 4)

theorem idx_membrane : ∀ t : Fin cfg0.N, win0_2.index t (0 : Fin 2) = t.val / 16 ∧ win0_2.index t (1 : Fin 2) = t.val / 4 % 4 :=
  (by decide +kernel : ∀ t : Fin grid0.N, win0_2.index t (0 : Fin 2) = t.val / 16 ∧ win0_2.index t (1 : Fin 2) = t.val / 4 % 4)

theorem idx_ownSpikes : ∀ t : Fin cfg0.N, win0_3.index t (0 : Fin 2) = t.val / 16 ∧ win0_3.index t (1 : Fin 2) = t.val / 4 % 4 :=
  (by decide +kernel : ∀ t : Fin grid0.N, win0_3.index t (0 : Fin 2) = t.val / 16 ∧ win0_3.index t (1 : Fin 2) = t.val / 4 % 4)

theorem idx_leak : ∀ t : Fin cfg0.N, win0_4.index t (0 : Fin 2) = 0 ∧ win0_4.index t (1 : Fin 2) = t.val / 4 % 4 :=
  (by decide +kernel : ∀ t : Fin grid0.N, win0_4.index t (0 : Fin 2) = 0 ∧ win0_4.index t (1 : Fin 2) = t.val / 4 % 4)

theorem idx_memOut : ∀ t : Fin cfg0.N, win0_5.index t (0 : Fin 2) = t.val / 16 ∧ win0_5.index t (1 : Fin 2) = t.val / 4 % 4 :=
  (by decide +kernel : ∀ t : Fin grid0.N, win0_5.index t (0 : Fin 2) = t.val / 16 ∧ win0_5.index t (1 : Fin 2) = t.val / 4 % 4)

theorem idx_spikeOut : ∀ t : Fin cfg0.N, win0_6.index t (0 : Fin 2) = t.val / 16 ∧ win0_6.index t (1 : Fin 2) = t.val / 4 % 4 :=
  (by decide +kernel : ∀ t : Fin grid0.N, win0_6.index t (0 : Fin 2) = t.val / 16 ∧ win0_6.index t (1 : Fin 2) = t.val / 4 % 4)

/-! ## The input blocks read off their arrays -/

theorem spikes_block (c : Dev nD) (t : Fin cfg0.N) (p : Fin 512) (k : Fin 1024) :
    spikesBlk m c t (ix2 p k) = NatRead.at2 (spikesIn m c) (512 * (t.val / 16) + p.val) (1024 * (t.val % 4) + k.val) := by
  have hi := idx_spikes t
  have hN : t.val < 32 := lt_of_lt_of_eq t.isLt N_0
  rw [NatRead.at2_of_lt (spikesIn m c) (show 512 * (t.val / 16) + p.val < 1024 by omega) (show 1024 * (t.val % 4) + k.val < 4096 by omega)]
  show iblk m c 0 t (ix2 p k) = V m c main_arg0 _
  unfold iblk
  rw [View.read_apply]
  show V m c main_arg0 _ = V m c main_arg0 _
  refine congrArg (V m c main_arg0) (funext fun a => Fin.ext ?_)
  match a with
  | ⟨0, _⟩ => show win0_0.index t 0 * 512 + 1 * p.val = 512 * (t.val / 16) + p.val; rw [hi.1]; omega
  | ⟨1, _⟩ => show win0_0.index t 1 * 1024 + 1 * k.val = 1024 * (t.val % 4) + k.val; rw [hi.2]; omega

theorem weights_block (c : Dev nD) (t : Fin cfg0.N) (q : Fin 1024) (k : Fin 1024) :
    weightsBlk m c t (ix2 q k) = NatRead.at2 (weights m c) (1024 * (t.val / 4 % 4) + q.val) (1024 * (t.val % 4) + k.val) := by
  have hi := idx_weights t
  have hN : t.val < 32 := lt_of_lt_of_eq t.isLt N_0
  rw [NatRead.at2_of_lt (weights m c) (show 1024 * (t.val / 4 % 4) + q.val < 4096 by omega) (show 1024 * (t.val % 4) + k.val < 4096 by omega)]
  show iblk m c 1 t (ix2 q k) = V m c main_arg3 _
  unfold iblk
  rw [View.read_apply]
  show V m c main_arg3 _ = V m c main_arg3 _
  refine congrArg (V m c main_arg3) (funext fun a => Fin.ext ?_)
  match a with
  | ⟨0, _⟩ => show win0_1.index t 0 * 1024 + 1 * q.val = 1024 * (t.val / 4 % 4) + q.val; rw [hi.1]; omega
  | ⟨1, _⟩ => show win0_1.index t 1 * 1024 + 1 * k.val = 1024 * (t.val % 4) + k.val; rw [hi.2]; omega

theorem membrane_block (c : Dev nD) (t : Fin cfg0.N) (p : Fin 512) (q : Fin 1024) :
    membraneBlk m c t (ix2 p q) = NatRead.at2 (membrane m c) (512 * (t.val / 16) + p.val) (1024 * (t.val / 4 % 4) + q.val) := by
  have hi := idx_membrane t
  have hN : t.val < 32 := lt_of_lt_of_eq t.isLt N_0
  rw [NatRead.at2_of_lt (membrane m c) (show 512 * (t.val / 16) + p.val < 1024 by omega) (show 1024 * (t.val / 4 % 4) + q.val < 4096 by omega)]
  show iblk m c 2 t (ix2 p q) = V m c main_arg1 _
  unfold iblk
  rw [View.read_apply]
  show V m c main_arg1 _ = V m c main_arg1 _
  refine congrArg (V m c main_arg1) (funext fun a => Fin.ext ?_)
  match a with
  | ⟨0, _⟩ => show win0_2.index t 0 * 512 + 1 * p.val = 512 * (t.val / 16) + p.val; rw [hi.1]; omega
  | ⟨1, _⟩ => show win0_2.index t 1 * 1024 + 1 * q.val = 1024 * (t.val / 4 % 4) + q.val; rw [hi.2]; omega

theorem ownSpikes_block (c : Dev nD) (t : Fin cfg0.N) (p : Fin 512) (q : Fin 1024) :
    ownSpikesBlk m c t (ix2 p q) = NatRead.at2 (ownSpikes m c) (512 * (t.val / 16) + p.val) (1024 * (t.val / 4 % 4) + q.val) := by
  have hi := idx_ownSpikes t
  have hN : t.val < 32 := lt_of_lt_of_eq t.isLt N_0
  rw [NatRead.at2_of_lt (ownSpikes m c) (show 512 * (t.val / 16) + p.val < 1024 by omega) (show 1024 * (t.val / 4 % 4) + q.val < 4096 by omega)]
  show iblk m c 3 t (ix2 p q) = V m c main_arg2 _
  unfold iblk
  rw [View.read_apply]
  show V m c main_arg2 _ = V m c main_arg2 _
  refine congrArg (V m c main_arg2) (funext fun a => Fin.ext ?_)
  match a with
  | ⟨0, _⟩ => show win0_3.index t 0 * 512 + 1 * p.val = 512 * (t.val / 16) + p.val; rw [hi.1]; omega
  | ⟨1, _⟩ => show win0_3.index t 1 * 1024 + 1 * q.val = 1024 * (t.val / 4 % 4) + q.val; rw [hi.2]; omega

theorem leak_block (c : Dev nD) (t : Fin cfg0.N) (q : Fin 1024) :
    leakBlk m c t (ix2 0 q) = NatRead.at2 (leakRow m c) 0 (1024 * (t.val / 4 % 4) + q.val) := by
  have hi := idx_leak t
  have hN : t.val < 32 := lt_of_lt_of_eq t.isLt N_0
  rw [NatRead.at2_of_lt (leakRow m c) (show 0 < 1 by omega) (show 1024 * (t.val / 4 % 4) + q.val < 4096 by omega)]
  show iblk m c 4 t (ix2 0 q) = V m c main_v0 _
  unfold iblk
  rw [View.read_apply]
  show V m c main_v0 _ = V m c main_v0 _
  refine congrArg (V m c main_v0) (funext fun a => Fin.ext ?_)
  match a with
  | ⟨0, _⟩ => show win0_4.index t 0 * 1 + 1 * 0 = 0; rw [hi.1]
  | ⟨1, _⟩ => show win0_4.index t 1 * 1024 + 1 * q.val = 1024 * (t.val / 4 % 4) + q.val; rw [hi.2]; omega

/-! ## The leak parameters as one row -/

/-- Before the kernel the 4096 leak parameters are laid out as a 1 x 4096 array: entry (0, o) is parameter `o`. -/
theorem leakRow_apply (c : Dev nD) (o : Fin 4096) :
    leakRow m c (ix2 0 o) = (m ((c : Thread nD τ).loc main_arg4) : FVec Ideal S4096 .f32) (ix1 o) := by
  have e : (V m c main_v0 : S1x4096.Idx → EReal)
      = shapeCast S1x4096 (m ((c : Thread nD τ).loc main_arg4) : S4096.Idx → EReal) shapeCasts_S4096_S1x4096 := by
    dsimp only [V, hostOps0]; after_results; rfl
  show (V m c main_v0 : S1x4096.Idx → EReal) (ix2 0 o) = _
  rw [e]
  refine (shapeCast_addUnit_apply ![4096] _ shapeCasts_S4096_S1x4096 (ix2 0 o)).trans ?_
  refine congrArg _ (funext fun a => ?_)
  match a with
  | ⟨0, _⟩ => rfl

end Cert.KernelIdeal.Lif

end
-- ==== Proof.LibBlockSum.lean ====
/-
  A sum over a long index range cut into consecutive blocks of equal length: in a commutative monoid (the extended reals'
  addition is one) the sum over `a · b` positions is the sum, block by block, of the sums inside each block of length
  `b`; position `b · s + x` is position `x` of block `s`. Stated for functions on the naturals (no bound travels with
  the position), and for functions on `Fin (a · b)`.
-/
import Mathlib.Algebra.BigOperators.Fin
import Mathlib.Algebra.BigOperators.Intervals

open scoped BigOperators

namespace BlockSum

variable {M : Type*} [AddCommMonoid M]

/-- The first `a · b` terms are `a` consecutive blocks of `b` terms. -/
theorem sum_range_mul (f : ℕ → M) (a b : ℕ) :
    ∑ i ∈ Finset.range (a * b), f i = ∑ s ∈ Finset.range a, ∑ x ∈ Finset.range b, f (b * s + x) := by
  induction a with
  | zero => simp
  | succ a ih =>
    rw [Nat.succ_mul, Finset.sum_range_add, ih, Finset.sum_range_succ, Nat.mul_comm a b]

/-- The same over the finite index types: a sum over `Fin (a · b)` of a function of the position's value. -/
theorem sum_fin_mul (f : ℕ → M) (a b : ℕ) :
    ∑ i : Fin (a * b), f i.val = ∑ s ∈ Finset.range a, ∑ x : Fin b, f (b * s + x.val) := by
  rw [Fin.sum_univ_eq_sum_range (fun i => f i) (a * b), sum_range_mul]
  refine Finset.sum_congr rfl fun s _ => ?_
  rw [← Fin.sum_univ_eq_sum_range (fun x => f (b * s + x)) b]

end BlockSum
-- ==== Proof.Accumulate.lean ====
/-
  The accumulator after every grid point, and the two result blocks at the last reduction step.

  Within one (row block, column block) the four reduction steps run consecutively. After step `s` the accumulator entry
  (p, q) is the sum over the steps `0 … s` of that step's 1024 products: the first step starts from the zero block, each
  later step adds to what the step before left, and a new block starts again from zero. This is an induction on the
  grid point, not an enumeration of the 32 points. After the fourth step the four partial sums are the whole 4096-term
  product of spike row and weight row, and the stored blocks are the thresholded update and the threshold test over it.
-/
import proofs.«150545_j58437325030132_1_alg».proof.Proof.Pieces
import proofs.«150545_j58437325030132_1_alg».proof.Proof.Payloads
import proofs.«150545_j58437325030132_1_alg».proof.Proof.Blocks
import proofs.«150545_j58437325030132_1_alg».proof.Proof.LibBlockSum

noncomputable section

open Idealize.ShloMosaic Idealize.ShloMosaic.TcCoe Idealize.SL.Sem
open Idealize.ShloMosaic.Pipeline (Dat)

open scoped BigOperators

namespace Cert.KernelIdeal.Lif

open Cert.KernelIdeal Cert.KernelIdeal.Gen Idealize.ShloMosaic.ValueIdx

variable (m : (ℓ : Loc nD τ sig) → Buf (Elt Ideal) ℓ)

/-- One reduction step's contribution to entry (p, q) of block (r, cb): the 1024 products of step `s`. -/
def stepTerm (P : FVec Ideal S1024x4096 .f32) (W : FVec Ideal S4096x4096 .f32) (r cb s : ℕ) (p : Fin 512) (q : Fin 1024) : EReal :=
  ∑ x : Fin 1024, NatRead.at2 P (512 * r + p.val) (1024 * s + x.val) * NatRead.at2 W (1024 * cb + q.val) (1024 * s + x.val)

/-- The product sum of a point's spike block and weight block is that point's step term. -/
theorem step_sum (c : Dev nD) (t : Fin cfg0.N) (p : Fin 512) (q : Fin 1024) :
    ∑ k : Fin 1024, spikesBlk m c t (ix2 p k) * weightsBlk m c t (ix2 q k)
      = stepTerm (spikesIn m c) (weights m c) (t.val / 16) (t.val / 4 % 4) (t.val % 4) p q :=
  Finset.sum_congr rfl fun k _ => by rw [spikes_block, weights_block]

/-- At the first reduction step the accumulator ends at that step's term alone. -/
theorem acc_reset (c : Dev nD) (t : Fin cfg0.N) (h0 : t.val % 4 = 0) (p : Fin 512) (q : Fin 1024) :
    (outsAt0 m c t.val t.isLt).2.2 (ix2 p q)
      = stepTerm (spikesIn m c) (weights m c) (t.val / 16) (t.val / 4 % 4) (t.val % 4) p q := by
  have h1 : ¬t.val % 4 = 3 := by omega
  rw [outsAt0_A m c t h0 h1]
  dsimp only
  refine (congrFun (acc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t)) (ix2 p q)).trans ?_
  refine (step_apply (spikesBlk m c t) (weightsBlk m c t) k0_pay1 p q).trans ?_
  rw [zeros_apply, zero_add, step_sum]

/-- At a later reduction step it ends at what the point before left plus this step's term. -/
theorem acc_step (c : Dev nD) (n : ℕ) (hn : n + 1 < cfg0.N) (h0 : ¬(n + 1) % 4 = 0) (p : Fin 512) (q : Fin 1024) :
    (outsAt0 m c (n + 1) hn).2.2 (ix2 p q)
      = (outsAt0 m c n (Nat.lt_of_succ_lt hn)).2.2 (ix2 p q)
        + stepTerm (spikesIn m c) (weights m c) ((n + 1) / 16) ((n + 1) / 4 % 4) ((n + 1) % 4) p q := by
  by_cases h1 : (n + 1) % 4 = 3
  · rw [show outsAt0 m c (n + 1) hn = _ from outsAt0_C m c ⟨n + 1, hn⟩ h0 h1]
    dsimp only
    refine (congrFun (acc_last (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 m c n (Nat.lt_of_succ_lt hn)).2.2) (ix2 p q)).trans ?_
    refine (step_apply (spikesBlk m c ⟨n + 1, hn⟩) (weightsBlk m c ⟨n + 1, hn⟩) (outsAt0 m c n (Nat.lt_of_succ_lt hn)).2.2 p q).trans ?_
    rw [step_sum]
  · rw [show outsAt0 m c (n + 1) hn = _ from outsAt0_B m c ⟨n + 1, hn⟩ h0 h1]
    dsimp only
    refine (congrFun (acc_middle (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 m c n (Nat.lt_of_succ_lt hn)).2.2) (ix2 p q)).trans ?_
    refine (step_apply (spikesBlk m c ⟨n + 1, hn⟩) (weightsBlk m c ⟨n + 1, hn⟩) (outsAt0 m c n (Nat.lt_of_succ_lt hn)).2.2 p q).trans ?_
    rw [step_sum]

/-- THE ACCUMULATOR after point `n`: the step terms of the point's block up to and including the point's step. -/
theorem acc_at (c : Dev nD) : ∀ (n : ℕ) (hn : n < cfg0.N) (p : Fin 512) (q : Fin 1024),
    (outsAt0 m c n hn).2.2 (ix2 p q)
      = ∑ s ∈ Finset.range (n % 4 + 1), stepTerm (spikesIn m c) (weights m c) (n / 16) (n / 4 % 4) s p q
  | 0, hn, p, q => by
    rw [Finset.sum_range_one]
    exact acc_reset m c ⟨0, hn⟩ rfl p q
  | n + 1, hn, p, q => by
    by_cases h0 : (n + 1) % 4 = 0
    · rw [h0, Finset.sum_range_one]
      have := acc_reset m c ⟨n + 1, hn⟩ h0 p q
      rw [show (⟨n + 1, hn⟩ : Fin cfg0.N).val % 4 = 0 from h0] at this
      exact this
    · have e1 : n / 16 = (n + 1) / 16 := by omega
      have e2 : n / 4 % 4 = (n + 1) / 4 % 4 := by omega
      have e3 : n % 4 + 1 = (n + 1) % 4 := by omega
      rw [acc_step m c n hn h0 p q, acc_at c n (Nat.lt_of_succ_lt hn) p q, e1, e2, e3]
      exact (Finset.sum_range_succ _ _).symm

/-- Four consecutive step terms are the whole 4096-term product of spike row and weight row. -/
theorem four_steps (P : FVec Ideal S1024x4096 .f32) (W : FVec Ideal S4096x4096 .f32) (r cb : ℕ) (p : Fin 512) (q : Fin 1024) :
    ∑ s ∈ Finset.range 4, stepTerm P W r cb s p q
      = ∑ k : Fin 4096, NatRead.at2 P (512 * r + p.val) k.val * NatRead.at2 W (1024 * cb + q.val) k.val :=
  (BlockSum.sum_fin_mul (fun k => NatRead.at2 P (512 * r + p.val) k * NatRead.at2 W (1024 * cb + q.val) k) 4 1024).symm

/-- After the last reduction step of a block the accumulator holds the whole product. -/
theorem acc_done (c : Dev nD) (t : Fin cfg0.N) (h1 : t.val % 4 = 3) (p : Fin 512) (q : Fin 1024) :
    (outsAt0 m c t.val t.isLt).2.2 (ix2 p q)
      = ∑ k : Fin 4096, NatRead.at2 (spikesIn m c) (512 * (t.val / 16) + p.val) k.val
          * NatRead.at2 (weights m c) (1024 * (t.val / 4 % 4) + q.val) k.val := by
  rw [acc_at m c t.val t.isLt p q, h1]
  exact four_steps _ _ _ _ p q

/-- At the last reduction step the membrane block is the thresholded update over the finished accumulator, -/
theorem mem_done (c : Dev nD) (t : Fin cfg0.N) (h1 : t.val % 4 = 3) :
    (outsAt0 m c t.val t.isLt).1
      = k0_pay5 (leakBlk m c t) (membraneBlk m c t) (ownSpikesBlk m c t) (outsAt0 m c t.val t.isLt).2.2 := by
  have h0 : ¬t.val % 4 = 0 := by omega
  rw [outsAt0_C m c t h0 h1]
  dsimp only
  rw [mem_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2,
    acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2]

/-- and the spike block the threshold test over it. -/
theorem spike_done (c : Dev nD) (t : Fin cfg0.N) (h1 : t.val % 4 = 3) :
    (outsAt0 m c t.val t.isLt).2.1
      = k0_pay4 (leakBlk m c t) (membraneBlk m c t) (ownSpikesBlk m c t) (outsAt0 m c t.val t.isLt).2.2 := by
  have h0 : ¬t.val % 4 = 0 := by omega
  rw [outsAt0_C m c t h0 h1]
  dsimp only
  rw [spike_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2,
    acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2]

end Cert.KernelIdeal.Lif

end
-- ==== Proof.Final.lean ====
/-
  From the result blocks to the two result arrays, and the kernel's run restated over them.

  The result blocks are written back at the last reduction step of each (row block, column block). Entry (p, q) of
  the block written at point `t` is entry (512 (t / 16) + p, 1024 ((t / 4) % 4) + q) of the array, and there the
  block's value is the layer's result at that array entry: the membrane, own-spike and leak blocks are the arrays read at
  the same entry, and the finished accumulator is the whole product of the entry's spike row and weight row. The eight
  written blocks tile the 1024 x 4096 arrays (entry (b, o) lies in the block of row block b / 512 and column block
  o / 1024), so after the run each result array is the layer's result everywhere.
-/
import proofs.«150545_j58437325030132_1_alg».proof.Proof.Accumulate
import proofs.«150545_j58437325030132_1_alg».proof.Proof.Gen.KernelIdeal.Value

noncomputable section

open Idealize.ShloMosaic Idealize.ShloMosaic.TcCoe Idealize.SL.Sem
open Idealize.ShloMosaic.Pipeline (Dat)

open scoped BigOperators

namespace Cert.KernelIdeal.Lif

open Cert.KernelIdeal Cert.KernelIdeal.Gen Idealize.ShloMosaic.ValueIdx

variable (m : (ℓ : Loc nD τ sig) → Buf (Elt Ideal) ℓ) (ρ : Dev nD → PrngReg)

/-- The leak parameters as the kernel's caller passed them. -/
abbrev leak (c : Dev nD) : FVec Ideal S4096 .f32 := m ((c : Thread nD τ).loc main_arg4)

/-- The layer's membrane result of the arrays as the kernel finds them. -/
abbrev memG (c : Dev nD) : FVec Ideal S1024x4096 .f32 :=
  Cert.LifSpec.memOut (spikesIn m c) (membrane m c) (ownSpikes m c) (weights m c) (leak m c)

/-- The layer's spike result of the same arrays. -/
abbrev spikeG (c : Dev nD) : FVec Ideal S1024x4096 .f32 :=
  Cert.LifSpec.spikeOut (spikesIn m c) (membrane m c) (ownSpikes m c) (weights m c) (leak m c)

/-- The update computed at block entry `j` of a last-step point is the layer's update at the array entry `i` the block
    entry lies at. -/
theorem update_entry (c : Dev nD) (t : Fin cfg0.N) (h1 : t.val % 4 = 3) (j : S512x1024.Idx) (i : S1024x4096.Idx)
    (hi0 : (i 0).val = 512 * (t.val / 16) + (j 0).val) (hi1 : (i 1).val = 1024 * (t.val / 4 % 4) + (j 1).val) :
    k0_pay3 (F := Ideal) (leakBlk m c t) (membraneBlk m c t) (ownSpikesBlk m c t) (outsAt0 m c t.val t.isLt).2.2 j
      = Cert.LifSpec.update (spikesIn m c) (membrane m c) (ownSpikes m c) (weights m c) (leak m c) (i 0) (i 1) := by
  obtain ⟨p, q, rfl⟩ : ∃ (p : Fin 512) (q : Fin 1024), j = ix2 p q := ⟨j 0, j 1, eq_ix2 j⟩
  obtain ⟨b, o, rfl⟩ : ∃ (b : Fin 1024) (o : Fin 4096), i = ix2 b o := ⟨i 0, i 1, eq_ix2 i⟩
  have hi0' : 512 * (t.val / 16) + p.val = b.val := hi0.symm
  have hi1' : 1024 * (t.val / 4 % 4) + q.val = o.val := hi1.symm
  have hleak : NatRead.at2 (leakRow m c) 0 o.val = leak m c (ix1 o) :=
    (NatRead.at2_fin (leakRow m c) (0 : Fin 1) o).trans (leakRow_apply m c o)
  rw [update_apply, acc_done m c t h1 p q, membrane_block, ownSpikes_block, leak_block, hi0', hi1', hleak,
    NatRead.at2_fin, NatRead.at2_fin]
  show _ = membrane m c (ix2 b o) * Ideal.logistic (leak m c (ix1 o)) * (1 - ownSpikes m c (ix2 b o))
      + ∑ k : Fin 4096, spikesIn m c (ix2 b k) * weights m c (ix2 o k)
  refine congrArg (_ + ·) (Finset.sum_congr rfl fun k _ => ?_)
  rw [NatRead.at2_fin, NatRead.at2_fin]

/-- What a last-step point writes back to the membrane array is its block of the layer's membrane result. -/
theorem mem_flushed (c : Dev nD) (t : Fin cfg0.N) (hf : (cfg0.win 5).flush t = true) :
    (dats m 0 c).flushed 5 t = ((cfg0.win 5).blk t).view.read (Elt Ideal) (memG m c) := by
  have h1 : t.val % 4 = 3 := (flush0_5 t).mp hf
  have hN : t.val < 32 := lt_of_lt_of_eq t.isLt N_0
  rw [Value.flushed5, mem_done m c t h1]
  funext j
  show k0_pay5 (F := Ideal) (leakBlk m c t) (membraneBlk m c t) (ownSpikesBlk m c t) (outsAt0 m c t.val t.isLt).2.2 j
    = memG m c (((cfg0.win 5).blk t).view.emb j)
  obtain ⟨p, q, hj⟩ : ∃ (p : Fin 512) (q : Fin 1024), (j : S512x1024.Idx) = ix2 p q := ⟨j 0, j 1, eq_ix2 j⟩
  have hu := update_entry m c t h1 j (((cfg0.win 5).blk t).view.emb j)
    (by show win0_5.index t 0 * 512 + 1 * (j 0).val = 512 * (t.val / 16) + (j 0).val; rw [(idx_memOut t).1]; omega)
    (by show win0_5.index t 1 * 1024 + 1 * (j 1).val = 1024 * (t.val / 4 % 4) + (j 1).val; rw [(idx_memOut t).2]; omega)
  show _ = if Cert.LifSpec.update _ _ _ _ _ _ _ < Cert.LifSpec.thr then Cert.LifSpec.update _ _ _ _ _ _ _ else 0
  rw [← hu, hj]
  exact mem_apply _ _ _ _ p q

/-- The same for the spike array. -/
theorem spike_flushed (c : Dev nD) (t : Fin cfg0.N) (hf : (cfg0.win 6).flush t = true) :
    (dats m 0 c).flushed 6 t = ((cfg0.win 6).blk t).view.read (Elt Ideal) (spikeG m c) := by
  have h1 : t.val % 4 = 3 := (flush0_6 t).mp hf
  have hN : t.val < 32 := lt_of_lt_of_eq t.isLt N_0
  rw [Value.flushed6, spike_done m c t h1]
  funext j
  show k0_pay4 (F := Ideal) (leakBlk m c t) (membraneBlk m c t) (ownSpikesBlk m c t) (outsAt0 m c t.val t.isLt).2.2 j
    = spikeG m c (((cfg0.win 6).blk t).view.emb j)
  obtain ⟨p, q, hj⟩ : ∃ (p : Fin 512) (q : Fin 1024), (j : S512x1024.Idx) = ix2 p q := ⟨j 0, j 1, eq_ix2 j⟩
  have hu := update_entry m c t h1 j (((cfg0.win 6).blk t).view.emb j)
    (by show win0_6.index t 0 * 512 + 1 * (j 0).val = 512 * (t.val / 16) + (j 0).val; rw [(idx_spikeOut t).1]; omega)
    (by show win0_6.index t 1 * 1024 + 1 * (j 1).val = 1024 * (t.val / 4 % 4) + (j 1).val; rw [(idx_spikeOut t).2]; omega)
  show _ = if Cert.LifSpec.thr < Cert.LifSpec.update _ _ _ _ _ _ _ then 1 else 0
  rw [← hu, hj]
  exact spike_apply _ _ _ _ p q

/-- An array entry is in a point's membrane block exactly when each coordinate is in the block's range. -/
theorem mem_blk_iff (t : Fin cfg0.N) (i : S1024x4096.Idx) :
    i ∈ ((cfg0.win 5).blk t).view.set
      ↔ ∀ a : Fin 2, win0_5.index t a * S512x1024.size a ≤ (i a).val ∧ (i a).val < win0_5.index t a * S512x1024.size a + S512x1024.size a := by
  show i ∈ ((View.whole main_v1_0).slice (win0_5.rect t)).set ↔ _
  rw [View.set_slice_whole, Rect.mem_set_unit]
  exact Iff.rfl

theorem spike_blk_iff (t : Fin cfg0.N) (i : S1024x4096.Idx) :
    i ∈ ((cfg0.win 6).blk t).view.set
      ↔ ∀ a : Fin 2, win0_6.index t a * S512x1024.size a ≤ (i a).val ∧ (i a).val < win0_6.index t a * S512x1024.size a + S512x1024.size a := by
  show i ∈ ((View.whole main_v1_1).slice (win0_6.rect t)).set ↔ _
  rw [View.set_slice_whole, Rect.mem_set_unit]
  exact Iff.rfl

/-- The last-step point of the block that holds array entry `i`. -/
def pointOf (i : S1024x4096.Idx) : Fin cfg0.N :=
  ⟨16 * ((i 0).val / 512) + 4 * ((i 1).val / 1024) + 3, by
    have h0 : (i 0).val < 1024 := (i 0).isLt
    have h1 : (i 1).val < 4096 := (i 1).isLt
    exact lt_of_lt_of_eq (show 16 * ((i 0).val / 512) + 4 * ((i 1).val / 1024) + 3 < 32 by omega) N_0.symm⟩

theorem mem_cover (i : S1024x4096.Idx) : ∃ t : Fin cfg0.N, (cfg0.win 5).flush t = true ∧ i ∈ ((cfg0.win 5).blk t).view.set := by
  have h0 : (i 0).val < 1024 := (i 0).isLt
  have h1 : (i 1).val < 4096 := (i 1).isLt
  have hv : (pointOf i).val = 16 * ((i 0).val / 512) + 4 * ((i 1).val / 1024) + 3 := rfl
  refine ⟨pointOf i, (flush0_5 _).mpr (by rw [hv]; omega), ?_⟩
  rw [mem_blk_iff]
  obtain ⟨e0, e1⟩ := idx_memOut (pointOf i)
  intro a
  match a with
  | ⟨0, _⟩ => show win0_5.index (pointOf i) 0 * 512 ≤ (i 0).val ∧ (i 0).val < win0_5.index (pointOf i) 0 * 512 + 512; rw [e0, hv]; omega
  | ⟨1, _⟩ => show win0_5.index (pointOf i) 1 * 1024 ≤ (i 1).val ∧ (i 1).val < win0_5.index (pointOf i) 1 * 1024 + 1024; rw [e1, hv]; omega

theorem spike_cover (i : S1024x4096.Idx) : ∃ t : Fin cfg0.N, (cfg0.win 6).flush t = true ∧ i ∈ ((cfg0.win 6).blk t).view.set := by
  have h0 : (i 0).val < 1024 := (i 0).isLt
  have h1 : (i 1).val < 4096 := (i 1).isLt
  have hv : (pointOf i).val = 16 * ((i 0).val / 512) + 4 * ((i 1).val / 1024) + 3 := rfl
  refine ⟨pointOf i, (flush0_6 _).mpr (by rw [hv]; omega), ?_⟩
  rw [spike_blk_iff]
  obtain ⟨e0, e1⟩ := idx_spikeOut (pointOf i)
  intro a
  match a with
  | ⟨0, _⟩ => show win0_6.index (pointOf i) 0 * 512 ≤ (i 0).val ∧ (i 0).val < win0_6.index (pointOf i) 0 * 512 + 512; rw [e0, hv]; omega
  | ⟨1, _⟩ => show win0_6.index (pointOf i) 1 * 1024 ≤ (i 1).val ∧ (i 1).val < win0_6.index (pointOf i) 1 * 1024 + 1024; rw [e1, hv]; omega

/-- After the run the membrane array is the layer's membrane result, -/
theorem mem_final (c : Dev nD) : (dats m 0 c).arrAt 5 cfg0.N = memG m c :=
  (dats m 0 c).arrAt_eq_of_cover 5 (memG m c) (mem_flushed m c) mem_cover

/-- and the spike array the layer's spike result. -/
theorem spike_final (c : Dev nD) : (dats m 0 c).arrAt 6 cfg0.N = spikeG m c :=
  (dats m 0 c).arrAt_eq_of_cover 6 (spikeG m c) (spike_flushed m c) spike_cover

/-- The arrays the kernel finds are the caller's: nothing before the kernel writes them. -/
theorem memG_eq (c : Dev nD) : memG m c = Cert.LifSpec.memOut (m ((c : Thread nD τ).loc main_arg0)) (m ((c : Thread nD τ).loc main_arg1))
    (m ((c : Thread nD τ).loc main_arg2)) (m ((c : Thread nD τ).loc main_arg3)) (m ((c : Thread nD τ).loc main_arg4)) := by
  show Cert.LifSpec.memOut (V m c main_arg0) (V m c main_arg1) (V m c main_arg2) (V m c main_arg3) _ = _
  rw [V_main_arg0 m c, V_main_arg1 m c, V_main_arg2 m c, V_main_arg3 m c]

theorem spikeG_eq (c : Dev nD) : spikeG m c = Cert.LifSpec.spikeOut (m ((c : Thread nD τ).loc main_arg0)) (m ((c : Thread nD τ).loc main_arg1))
    (m ((c : Thread nD τ).loc main_arg2)) (m ((c : Thread nD τ).loc main_arg3)) (m ((c : Thread nD τ).loc main_arg4)) := by
  show Cert.LifSpec.spikeOut (V m c main_arg0) (V m c main_arg1) (V m c main_arg2) (V m c main_arg3) _ = _
  rw [V_main_arg0 m c, V_main_arg1 m c, V_main_arg2 m c, V_main_arg3 m c]

/-- THE KERNEL'S RUN: it ends with the two result arrays at the layer's results of its arguments, the arguments unchanged. -/
theorem run : θ_run defs (onTc (τ := τ) (main (F := Ideal))) ⟨m, fun _ => 0, ρ⟩ fun r => ∀ c : Dev nD,
      r.2.mem ((c : Thread nD τ).loc main_v1_0) = Cert.LifSpec.memOut (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_v1_1) = Cert.LifSpec.spikeOut (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1.trans (mem_final m c)).trans (memG_eq m c),
      ((h c).2.1.trans (spike_final m c)).trans (spikeG_eq m c), (h c).2.2⟩)
    (Cert.KernelIdeal.Value.run_blocks m ρ)

end Cert.KernelIdeal.Lif

end
-- ==== Proof.Reference.lean ====
/-
  The reference's two results are the same two functions of its arguments.

  jnp computes the layer stage by stage on whole arrays. Read at entry (b, o): the logistic function arrives spelled as
  one over (one plus the exponential of the negated leak parameter), broadcast along the batch; the product of incoming
  spikes and transposed weights is the sum over the 4096 inputs of spike times weight; the membrane result is the
  conditional on "update below the threshold"; and the spike result tests whether (update minus threshold) is
  positive, which on the extended reals, infinities included, is the test "update above the threshold".
-/
import proofs.«150545_j58437325030132_1_alg».proof.Proof.Gen.ReferenceIdeal.Read
import proofs.«150545_j58437325030132_1_alg».proof.Proof.Spec

noncomputable section

open Idealize.ShloMosaic Idealize.ShloMosaic.TcCoe Idealize.SL.Sem
open Idealize.ShloMosaic.Pipeline (Dat)

open scoped BigOperators

namespace Cert.ReferenceIdeal.Lif

open Cert.ReferenceIdeal Cert.ReferenceIdeal.Gen Cert.ReferenceIdeal.Read Idealize.ShloMosaic.ValueIdx

variable (x0 x1 x2 : FVec Ideal S1024x4096 .f32) (x3 : FVec Ideal S4096x4096 .f32) (x4 : FVec Ideal S4096 .f32)

/-- The update stage at an entry is the layer's update. -/
theorem update_stage (b : Fin 1024) (o : Fin 4096) :
    val_main_v13 (F := Ideal) x0 x1 x2 x3 x4 (ix2 b o) = Cert.LifSpec.update x0 x1 x2 x3 x4 b o := by
  have el : ∀ k : Fin 4096, lidx_main_v12 (ix2 b o) k = ix2 b k := fun k => funext fun a => Fin.ext (by
    match a with | ⟨0, _⟩ => rfl | ⟨1, _⟩ => rfl)
  have er : ∀ k : Fin 4096, ridx_main_v12 (ix2 b o) k = ix2 o k := fun k => funext fun a => Fin.ext (by
    match a with | ⟨0, _⟩ => rfl | ⟨1, _⟩ => rfl)
  have e6 : idx_main_v6 (idx_main_v7 (ix2 b o)) = ix1 o := funext fun a => Fin.ext (by
    match a with | ⟨0, _⟩ => rfl)
  rw [val_main_v13_apply, val_main_v11_apply, val_main_v8_apply, val_main_v7_apply, val_main_v6_apply, val_main_v5_apply,
    val_main_v4_apply, val_main_cst_0_apply, val_main_v3_apply, val_main_v2_apply, val_main_cst_apply, val_main_v1_apply,
    val_main_v0_apply, val_main_v10_apply, val_main_v9_apply, val_main_cst_1_apply, val_main_v12_apply, e6]
  simp only [el, er]
  show x1 (ix2 b o) * Ideal.div (Ideal.ofBits .f32 0x3F800000#32) (Ideal.ofBits .f32 0x3F800000#32 + Ideal.exp (-(x4 (ix1 o))))
      * (Ideal.ofBits .f32 0x3F800000#32 - x2 (ix2 b o)) + ∑ k : Fin 4096, x0 (ix2 b k) * x3 (ix2 o k) = _
  rw [Cert.LifSpec.logistic_spelled, Ideal.ofBits_one_f32]
  rfl

/-- The reference's membrane result is the layer's. -/
theorem mem_eq : val_main_v21 (F := Ideal) x0 x1 x2 x3 x4 = Cert.LifSpec.memOut x0 x1 x2 x3 x4 := by
  funext i
  obtain ⟨b, o, rfl⟩ : ∃ (b : Fin 1024) (o : Fin 4096), i = ix2 b o := ⟨i 0, i 1, eq_ix2 i⟩
  rw [val_main_v21_apply, val_main_v20_apply, val_main_v19_apply, val_main_cst_4_apply, val_main_call0_v1_apply,
    val_main_call0_v0_apply, val_main_cst_5_apply, update_stage]
  exact Cert.LifSpec.select_lt _ _

/-- The reference's spike result is the layer's. -/
theorem spike_eq : val_main_v18 (F := Ideal) x0 x1 x2 x3 x4 = Cert.LifSpec.spikeOut x0 x1 x2 x3 x4 := by
  funext i
  obtain ⟨b, o, rfl⟩ : ∃ (b : Fin 1024) (o : Fin 4096), i = ix2 b o := ⟨i 0, i 1, eq_ix2 i⟩
  rw [val_main_v18_apply, val_main_v17_apply, val_main_v16_apply, val_main_cst_3_apply, val_main_v15_apply,
    val_main_v14_apply, val_main_cst_2_apply, update_stage]
  exact Cert.LifSpec.spike_shifted _ _

end Cert.ReferenceIdeal.Lif

end
-- ==== Proof.lean ====
/-
  One step of a leaky integrate-and-fire layer: a fused kernel against its jnp reference, over the extended reals.

  The kernel tiles the 1024 x 4096 result into eight blocks of 512 x 1024 and, for each, adds up the product of incoming
  spikes and transposed weights in four reduction steps of 1024 inputs in a carried accumulator; after the fourth step it
  applies the leaky update  membrane * logistic(leak) * (1 - own spike) + product,  stores the update where it is below
  the threshold (zero elsewhere) as the new membrane potentials, and stores the test "update above the threshold" as the
  new spikes. The reference computes the same update on whole arrays, with the logistic function spelled out, and tests
  "update minus threshold is positive".

  Both are the same two functions of the five arguments (Proof/Spec.lean): regrouping the 4096-term product into four
  consecutive partial sums is associativity of addition (Proof/Accumulate.lean, Proof/LibBlockSum.lean), the narrowing
  of the operands before the product is the identity, the logistic function and its spelling agree, and shifting a
  comparison by the threshold does not change it, at the infinities either — so the finiteness of the inputs is never
  used. The kernel's side is read off its run block by block (Proof/Pieces.lean, Payloads.lean, Blocks.lean,
  Accumulate.lean, Final.lean), the reference's off its run stage by stage (Proof/Reference.lean).
-/
import proofs.«150545_j58437325030132_1_alg».proof.Defs
import proofs.«150545_j58437325030132_1_alg».proof.Proof.Gen.Kernel
import proofs.«150545_j58437325030132_1_alg».proof.Proof.Gen.Kernel.Skeleton
import proofs.«150545_j58437325030132_1_alg».proof.Proof.Gen.Kernel.Launch
import proofs.«150545_j58437325030132_1_alg».proof.Proof.Gen.Kernel.Points
import proofs.«150545_j58437325030132_1_alg».proof.Proof.Gen.Kernel.Frame
import proofs.«150545_j58437325030132_1_alg».proof.Proof.Gen.KernelIdeal
import proofs.«150545_j58437325030132_1_alg».proof.Proof.Gen.KernelIdeal.Skeleton
import proofs.«150545_j58437325030132_1_alg».proof.Proof.Gen.KernelIdeal.Launch
import proofs.«150545_j58437325030132_1_alg».proof.Proof.Gen.KernelIdeal.Points
import proofs.«150545_j58437325030132_1_alg».proof.Proof.Gen.KernelIdeal.Frame
import proofs.«150545_j58437325030132_1_alg».proof.Proof.Gen.ReferenceIdeal
import proofs.«150545_j58437325030132_1_alg».proof.Proof.Gen.Pre_finite_inputs
import proofs.«150545_j58437325030132_1_alg».proof.Proof.Gen.KernelIdeal.Value
import proofs.«150545_j58437325030132_1_alg».proof.Proof.Gen.ReferenceIdeal.Run
import proofs.«150545_j58437325030132_1_alg».proof.Proof.Gen.ReferenceIdeal.Read
import proofs.«150545_j58437325030132_1_alg».proof.Proof.Final
import proofs.«150545_j58437325030132_1_alg».proof.Proof.Reference
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments alone: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the layer's membrane and spike results of arguments that agree. -/
theorem algebraic : Cert.algebraic_KernelIdeal_ReferenceIdeal := by
  intro m ρ m' ρ' _ hagree
  refine ⟨_, _, Cert.KernelIdeal.Lif.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v21_eq, Cert.ReferenceIdeal.Lif.mem_eq, (hagree c).1, (hagree c).2.1, (hagree c).2.2.1,
      (hagree c).2.2.2.1, (hagree c).2.2.2.2]
  · rw [Cert.ReferenceIdeal.Read.val_main_v18_eq, Cert.ReferenceIdeal.Lif.spike_eq, (hagree c).1, (hagree c).2.1, (hagree c).2.2.1,
      (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
